-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S256x256 : Shape := ⟨2, ![256, 256]⟩
abbrev S256 : Shape := ⟨1, ![256]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256x256 .f32) (main_arg6 : FVec F S256x256 .f32) (main_arg7 : FVec F S256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S32x4096 .f32) (main_arg1 : FVec F S32x4096 .f32) (main_arg2 : IVec S32x4096 32) (main_arg3 : FVec F S256x256 .f32) (main_arg4 : FVec F S256x256 .f32) (main_arg5 : FVec F S256x256 .f32) (main_arg6 : FVec F S256x256 .f32) (main_arg7 : FVec F S256 .f32) (main_arg8 : FVec F S256x256 .f32) (main_arg9 : FVec F S256 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S32x4096 : Shape := ⟨2, ![32, 4096]⟩
abbrev S256x256 : Shape := ⟨2, ![256, 256]⟩
abbrev S256 : Shape := ⟨1, ![256]⟩
abbrev S32x4096x256 : Shape := ⟨3, ![32, 4096, 256]⟩
abbrev S8x128 : Shape := ⟨2, ![8, 128]⟩
abbrev S8x128x256 : Shape := ⟨3, ![8, 128, 256]⟩
abbrev S8x128x1 : Shape := ⟨3, ![8, 128, 1]⟩
abbrev S1x1x256 : Shape := ⟨3, ![1, 1, 256]⟩
abbrev S1024x256 : Shape := ⟨2, ![1024, 256]⟩

abbrev nBuf : Space → Nat
  | .hbm => 12
  | .vmem => 13
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .i32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S32x4096x256, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256, .f32⟩
  | .local _ .vmem, ⟨9, _⟩ => ⟨S256x256, .f32⟩
  | .local _ .vmem, ⟨10, _⟩ => ⟨S256, .f32⟩
  | .local _ .vmem, ⟨11, _⟩ => ⟨S8x128x256, .f32⟩
  | .local _ .vmem, ⟨12, _⟩ => ⟨S8x128x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S256x256_S256x256_1_0 : S256x256.Transposes [1, 0] S256x256
  inb_S8x128_S8x128_0_0 : ∀ a, (![0, 0] : Fin 2 → Nat) a + S8x128.size a ≤ S8x128.size a
  h_S8x128 : 0 < S8x128.numel
  inb_S256_S256_0 : ∀ a, (![0] : Fin 1 → Nat) a + S256.size a ≤ S256.size a
  h_S256 : 0 < S256.numel
  shapeCasts_S8x128_S8x128x1 : S8x128.ShapeCasts S8x128x1
  shapeCasts_S256_S1x1x256 : S256.ShapeCasts S1x1x256
  broadcasts_S8x128x1_S8x128x256 : S8x128x1.Broadcasts S8x128x256
  broadcasts_S1x1x256_S8x128x256 : S1x1x256.Broadcasts S8x128x256
  shapeCasts_S8x128x256_S1024x256 : S8x128x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S8x128x256 : S1024x256.ShapeCasts S8x128x256
  inb_S8x128x256_S8x128x256_0_0_0 : ∀ a, (![0, 0, 0] : Fin 3 → Nat) a + S8x128x256.size a ≤ S8x128x256.size a
  h_S8x128x256 : 0 < S8x128x256.numel
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S32x4096.size a
  hwx0_0 : ∀ i : grid0.Coords, EltTy.bits .f32 = 32 ∨ (Rect.block (s := S32x4096) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x4096.size a
  hwx0_1 : ∀ i : grid0.Coords, EltTy.bits .f32 = 32 ∨ (Rect.block (s := S32x4096) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128x256.size a ≤ S32x4096x256.size a
  hwx0_9 : ∀ i : grid0.Coords, EltTy.bits .f32 = 32 ∨ (Rect.block (s := S32x4096x256) S8x128x256.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S8x128x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x4096 : Shape := ⟨2, ![32, 4096]⟩
abbrev S256x256 : Shape := ⟨2, ![256, 256]⟩
abbrev S256 : Shape := ⟨1, ![256]⟩
abbrev S32x4096x1 : Shape := ⟨3, ![32, 4096, 1]⟩
abbrev S_ : Shape := ⟨0, ![]⟩
abbrev S1x1x256 : Shape := ⟨3, ![1, 1, 256]⟩
abbrev S32x4096x256 : Shape := ⟨3, ![32, 4096, 256]⟩

abbrev nBuf : Space → Nat
  | .hbm => 35
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .i32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S32x4096x1, .f32⟩
  | .hbm, ⟨11, _⟩ => ⟨S_, .f32⟩
  | .hbm, ⟨12, _⟩ => ⟨S32x4096x1, .f32⟩
  | .hbm, ⟨13, _⟩ => ⟨S32x4096x1, .f32⟩
  | .hbm, ⟨14, _⟩ => ⟨S1x1x256, .f32⟩
  | .hbm, ⟨15, _⟩ => ⟨S32x4096x256, .f32⟩
  | .hbm, ⟨16, _⟩ => ⟨S32x4096x256, .f32⟩
  | .hbm, ⟨17, _⟩ => ⟨S32x4096x256, .f32⟩
  | .hbm, ⟨18, _⟩ => ⟨S32x4096x256, .f32⟩
  | .hbm, ⟨19, _⟩ => ⟨S32x4096x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | .hbm, ⟨23, _⟩ => ⟨S32x4096x256, .f32⟩
  | .hbm, ⟨24, _⟩ => ⟨S32x4096x256, .f32⟩
  | .hbm, ⟨25, _⟩ => ⟨S32x4096x256, .f32⟩
  | .hbm, ⟨26, _⟩ => ⟨S32x4096x256, .f32⟩
  | .hbm, ⟨27, _⟩ => ⟨S32x4096x1, .f32⟩
  | .hbm, ⟨28, _⟩ => ⟨S1x1x256, .f32⟩
  | .hbm, ⟨29, _⟩ => ⟨S32x4096x256, .f32⟩
  | .hbm, ⟨30, _⟩ => ⟨S32x4096x256, .f32⟩
  | .hbm, ⟨31, _⟩ => ⟨S32x4096x256, .f32⟩
  | .hbm, ⟨32, _⟩ => ⟨S32x4096x256, .f32⟩
  | .hbm, ⟨33, _⟩ => ⟨S32x4096x256, .f32⟩
  | .hbm, ⟨34, _⟩ => ⟨S32x4096x256, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S256_S1x1x256_2 : S256.BroadcastsInDim S1x1x256 (![2] : Fin 1 → Fin S1x1x256.rank)
  bcast_S32x4096x1_S32x4096x256_0_1_2 : S32x4096x1.BroadcastsInDim S32x4096x256 (![0, 1, 2] : Fin 3 → Fin S32x4096x256.rank)
  bcast_S1x1x256_S32x4096x256_0_1_2 : S1x1x256.BroadcastsInDim S32x4096x256 (![0, 1, 2] : Fin 3 → Fin S32x4096x256.rank)
  dot_S32x4096x256_S256x256_S32x4096x256_2_0_01_1_n_n_wf : DotDims.WF S32x4096x256 S256x256 S32x4096x256 [2] [0] [0, 1] [1] [] []
  dot_S32x4096x256_S256x256_S32x4096x256_2_1_01_0_n_n_wf : DotDims.WF S32x4096x256 S256x256 S32x4096x256 [2] [1] [0, 1] [0] [] []

variable [Facts₀]

def dot_S32x4096x256_S256x256_S32x4096x256_2_0_01_1_n_n : DotDims S32x4096x256 S256x256 S32x4096x256 where
  lhsContracting := [2]
  rhsContracting := [0]
  lhsNonContracting := [0, 1]
  rhsNonContracting := [1]
  lhsBatch := []
  rhsBatch := []
  wf := dot_S32x4096x256_S256x256_S32x4096x256_2_0_01_1_n_n_wf
def dot_S32x4096x256_S256x256_S32x4096x256_2_1_01_0_n_n : DotDims S32x4096x256 S256x256 S32x4096x256 where
  lhsContracting := [2]
  rhsContracting := [1]
  lhsNonContracting := [0, 1]
  rhsNonContracting := [0]
  lhsBatch := []
  rhsBatch := []
  wf := dot_S32x4096x256_S256x256_S32x4096x256_2_1_01_0_n_n_wf

class Facts : Prop extends Facts₀ where

variable [Facts]
-- ==== Proof.FilmSpec.lean ====
/-
  The function both programs compute, one output row at a time.

  Fix a position (b, s) of the [32, 4096] grid of samples, with time value `tt = t[b, s]` and signal value
  `xx = x[b, s]`. The 256 harmonics of that position are the angles `tt · (2π · n[h])`, where 2π is the single
  precision word both programs carry. With `mix p q e = Σ_h sin(angle h) · p[h, e] + Σ_h cos(angle h) · q[h, e]`, the
  modulated feature is `film e = (xx · lp_w[e]) · tanh (mix a b e) + mix v w e`, and the output row is
  `row f = Σ_e film e · lp2[f, e]`: the projection by the transpose of `lp2`. The whole result is that row at every
  position: `result[b, s, f] = row(t[b, s], x[b, s]) f`.

  Everything is over the extended reals, where sums and products are commutative and associative without any
  finiteness assumption; the inputs' finiteness is never used.
-/
import Idealize.ShloMosaic.PureOps.Ideal
import Idealize.ShloMosaic.Lib.ValueIdx

noncomputable section

open scoped BigOperators

namespace Cert.Film

open Idealize.ShloMosaic Idealize.ShloMosaic.ValueIdx

/-- The samples' grid, [32, 4096]. -/
abbrev SPos : Shape := ⟨2, ![32, 4096]⟩
/-- A square weight matrix, [256, 256]. -/
abbrev SMat : Shape := ⟨2, ![256, 256]⟩
/-- A weight vector, [256]. -/
abbrev SVec : Shape := ⟨1, ![256]⟩
/-- The result, [32, 4096, 256]. -/
abbrev SOut : Shape := ⟨3, ![32, 4096, 256]⟩

/-- The single precision word of 2π, as the extended real it denotes. -/
def twoPi : EReal := Ideal.ofBits .f32 0x40C90FDB#32

/-- Harmonic `h` of a position with time value `tt`: `tt · (2π · n[h])`. -/
def angle (tt : EReal) (n : SVec.Idx → EReal) (h : Fin 256) : EReal := tt * (twoPi * n (ix1 h))

/-- The sines against column `e` of `p` plus the cosines against column `e` of `q`. -/
def mix (tt : EReal) (n : SVec.Idx → EReal) (p q : SMat.Idx → EReal) (e : Fin 256) : EReal :=
  ∑ h : Fin 256, Ideal.sin (angle tt n h) * p (ix2 h e) + ∑ h : Fin 256, Ideal.cos (angle tt n h) * q (ix2 h e)

/-- The modulated feature `e` of a position: scale `tanh (mix a b)` on the projected signal, shift `mix v w`. -/
def film (tt xx : EReal) (n lpw : SVec.Idx → EReal) (a b w v : SMat.Idx → EReal) (e : Fin 256) : EReal :=
  xx * lpw (ix1 e) * Ideal.tanh (mix tt n a b e) + mix tt n v w e

/-- Output `f` of a position: the features against row `f` of `lp2`. -/
def row (tt xx : EReal) (n lpw : SVec.Idx → EReal) (a b w v lp2 : SMat.Idx → EReal) (f : Fin 256) : EReal :=
  ∑ e : Fin 256, film tt xx n lpw a b w v e * lp2 (ix2 f e)

/-- The whole result: at (b, s, f), output `f` of position (b, s). -/
def result (x t : SPos.Idx → EReal) (a b w v : SMat.Idx → EReal) (lpw : SVec.Idx → EReal) (lp2 : SMat.Idx → EReal)
    (n : SVec.Idx → EReal) : SOut.Idx → EReal :=
  fun i => row (t (ix2 (i 0) (i 1))) (x (ix2 (i 0) (i 1))) n lpw a b w v lp2 (i 2)

end Cert.Film

end
-- ==== Proof.FilmLayout.lean ====
/-
  The kernel's re-layings of one [8, 128] tile of positions, read at coordinates.

  A tile holds 8 · 128 = 1024 positions; the kernel works on them as the rows of [1024, ·] matrices, row
  `y0 · 128 + y1` being position (y0, y1) of the tile. Four reshapes and two broadcasts move between the tile
  layout [8, 128, ·] and the matrix layout [1024, ·]: each is read here at an index given by its coordinates.
  A reshape keeps the row-major position, so each reshape lemma is one equation between two row-major positions.
-/
import Idealize.ShloMosaic.Lib.Pipeline.Value
import Idealize.ShloMosaic.Lib.ValueIdx

noncomputable section

namespace Cert.Film

open Idealize.ShloMosaic Idealize.ShloMosaic.ValueIdx

variable {α : Type}

/-- Position (y0, y1) of a tile as a row of the [1024, ·] matrices. -/
def tileRow (y0 : Fin 8) (y1 : Fin 128) : Fin 1024 := ⟨y0.val * 128 + y1.val, by have := y0.isLt; have := y1.isLt; omega⟩

theorem tileRow_val (y0 : Fin 8) (y1 : Fin 128) : (tileRow y0 y1).val = y0.val * 128 + y1.val := rfl

/-- A tile of scalars given a trailing unit axis: [8, 128] as [8, 128, 1]. -/
theorem cast_tile_unit (x : (⟨2, ![8, 128]⟩ : Shape).Idx → α) (h : (⟨2, ![8, 128]⟩ : Shape).ShapeCasts ⟨3, ![8, 128, 1]⟩)
    (y0 : Fin 8) (y1 : Fin 128) (u : Fin 1) : shapeCast ⟨3, ![8, 128, 1]⟩ x h (ix3 y0 y1 u) = x (ix2 y0 y1) :=
  shapeCast_apply x h _ _ (by
    have hu : u.val = 0 := by omega
    rw [Shape.rowMajor_val_two, Shape.rowMajor_val_three]
    show y0.val * 128 + y1.val = (y0.val * 128 + y1.val) * 1 + u.val
    rw [hu, Nat.mul_one, Nat.add_zero])

/-- A vector given two leading unit axes: [256] as [1, 1, 256]. -/
theorem cast_vec_units (x : (⟨1, ![256]⟩ : Shape).Idx → α) (h : (⟨1, ![256]⟩ : Shape).ShapeCasts ⟨3, ![1, 1, 256]⟩)
    (u0 u1 : Fin 1) (k : Fin 256) : shapeCast ⟨3, ![1, 1, 256]⟩ x h (ix3 u0 u1 k) = x (ix1 k) :=
  shapeCast_apply x h _ _ (by
    have h0 : u0.val = 0 := by omega
    have h1 : u1.val = 0 := by omega
    rw [Shape.rowMajor_val_one, Shape.rowMajor_val_three]
    show k.val = (u0.val * 1 + u1.val) * 256 + k.val
    omega)

/-- A tile's scalars spread along a new last axis: every lane `k` of position (y0, y1) reads that position. -/
theorem bcast_tile (v : (⟨3, ![8, 128, 1]⟩ : Shape).Idx → α) (h : (⟨3, ![8, 128, 1]⟩ : Shape).Broadcasts ⟨3, ![8, 128, 256]⟩)
    (y0 : Fin 8) (y1 : Fin 128) (k : Fin 256) :
    broadcastTo ⟨3, ![8, 128, 256]⟩ v h (ix3 y0 y1 k) = v (ix3 y0 y1 (0 : Fin 1)) := by
  refine broadcastTo_apply v h (ix3 y0 y1 k) (ix3 y0 y1 (0 : Fin 1)) fun ax => ?_
  match ax with
  | ⟨0, _⟩ => show y0.val = if (8 : Nat) = 1 then 0 else y0.val; rw [if_neg (by decide)]
  | ⟨1, _⟩ => show y1.val = if (128 : Nat) = 1 then 0 else y1.val; rw [if_neg (by decide)]
  | ⟨2, _⟩ => show 0 = if (1 : Nat) = 1 then 0 else k.val; rw [if_pos rfl]

/-- A vector spread over the tile's positions: lane `k` of every position reads entry `k`. -/
theorem bcast_lane (v : (⟨3, ![1, 1, 256]⟩ : Shape).Idx → α) (h : (⟨3, ![1, 1, 256]⟩ : Shape).Broadcasts ⟨3, ![8, 128, 256]⟩)
    (y0 : Fin 8) (y1 : Fin 128) (k : Fin 256) :
    broadcastTo ⟨3, ![8, 128, 256]⟩ v h (ix3 y0 y1 k) = v (ix3 (0 : Fin 1) (0 : Fin 1) k) := by
  refine broadcastTo_apply v h (ix3 y0 y1 k) (ix3 (0 : Fin 1) (0 : Fin 1) k) fun ax => ?_
  match ax with
  | ⟨0, _⟩ => show 0 = if (1 : Nat) = 1 then 0 else y0.val; rw [if_pos rfl]
  | ⟨1, _⟩ => show 0 = if (1 : Nat) = 1 then 0 else y1.val; rw [if_pos rfl]
  | ⟨2, _⟩ => show k.val = if (256 : Nat) = 1 then 0 else k.val; rw [if_neg (by decide)]

/-- The tile layout flattened to matrix rows: row `tileRow y0 y1` is position (y0, y1). -/
theorem cast_rows (x : (⟨3, ![8, 128, 256]⟩ : Shape).Idx → α) (h : (⟨3, ![8, 128, 256]⟩ : Shape).ShapeCasts ⟨2, ![1024, 256]⟩)
    (y0 : Fin 8) (y1 : Fin 128) (k : Fin 256) :
    shapeCast ⟨2, ![1024, 256]⟩ x h (ix2 (tileRow y0 y1) k) = x (ix3 y0 y1 k) :=
  shapeCast_apply x h _ _ (by
    rw [Shape.rowMajor_val_three, Shape.rowMajor_val_two]
    show (y0.val * 128 + y1.val) * 256 + k.val = (tileRow y0 y1).val * 256 + k.val
    rw [tileRow_val])

/-- Matrix rows laid back as a tile: position (y0, y1) is row `tileRow y0 y1`. -/
theorem cast_tile (x : (⟨2, ![1024, 256]⟩ : Shape).Idx → α) (h : (⟨2, ![1024, 256]⟩ : Shape).ShapeCasts ⟨3, ![8, 128, 256]⟩)
    (y0 : Fin 8) (y1 : Fin 128) (k : Fin 256) :
    shapeCast ⟨3, ![8, 128, 256]⟩ x h (ix3 y0 y1 k) = x (ix2 (tileRow y0 y1) k) :=
  shapeCast_apply x h _ _ (by
    rw [Shape.rowMajor_val_two, Shape.rowMajor_val_three]
    show (tileRow y0 y1).val * 256 + k.val = (y0.val * 128 + y1.val) * 256 + k.val
    rw [tileRow_val])

end Cert.Film

end
-- ==== Proof.FilmTile.lean ====
/-
  What the kernel's body stores for one tile, entry by entry.

  The body works on a tile of 8 · 128 positions as 1024 matrix rows. Every product it takes is a [1024, 256] by
  [256, 256] matrix product into a zero accumulator, which over the extended reals is the plain sum
  `Σ_k l[p, k] · r[k, e]`; a change of float format is the identity there. Read at position (y0, y1) of the tile and
  output `f`, the stored value is `row` of that position's time and signal values (FilmSpec), with the projection
  matrix read transposed: the kernel is handed the transpose of `lp2`.
-/
import proofs.«161239_j79319456022770_1_alg».proof.Proof.Gen.KernelIdeal.Skeleton
import proofs.«161239_j79319456022770_1_alg».proof.Proof.FilmSpec
import proofs.«161239_j79319456022770_1_alg».proof.Proof.FilmLayout
import Idealize.ShloMosaic.PureOps.Ideal.Laws
import Idealize.ShloMosaic.Lib.ValueIdx
import Idealize.ShloMosaic.Lib.Pipeline.Value

noncomputable section

open scoped BigOperators

namespace Cert.Film

open Cert.KernelIdeal Cert.KernelIdeal.Gen Idealize.ShloMosaic Idealize.ShloMosaic.ValueIdx

/-! ## A row-by-column product: the left operand's row is the output's row, the right operand's column its column -/

theorem prod_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem prod_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem prod_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem prod_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The body's matrix product into a zero accumulator, at row `p` and column `e`: `Σ_k l[p, k] · r[k, e]`. -/
theorem prod_apply {φ₁ φ₂ : FTy} (l : FVec Ideal S1024x256 φ₁) (r : FVec Ideal S256x256 φ₂) (p : Fin 1024) (e : Fin 256) :
    matmul dot_S1024x256_S256x256_S1024x256_1_0_0_1_n_n none l r (constant (F := Ideal) S1024x256 .f32 0x00000000#32) (ix2 p e)
      = ∑ k : Fin 256, l (ix2 p k) * r (ix2 k e) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p e) ((contrEquiv1 dot_S1024x256_S256x256_S1024x256_1_0_0_1_n_n 256 rfl rfl).symm k) = ix2 p k := funext fun a => Fin.ext (by
    match a with
    | ⟨0, _⟩ => exact prod_lhs_0 _ _
    | ⟨1, _⟩ => exact (prod_lhs_1 _ _).trans hk)
  have er : dot_S1024x256_S256x256_S1024x256_1_0_0_1_n_n.rhsIdx (ix2 p e) ((contrEquiv1 dot_S1024x256_S256x256_S1024x256_1_0_0_1_n_n 256 rfl rfl).symm k) = ix2 k e := funext fun a => Fin.ext (by
    match a with
    | ⟨0, _⟩ => exact (prod_rhs_0 _ _).trans hk
    | ⟨1, _⟩ => exact prod_rhs_1 _ _)
  rw [el, er]

/-! ## The body's values for one tile -/

/-- The tile's angles: position (y0, y1), harmonic `h`. -/
theorem pay_angle (T : Vec Ideal S8x128 .f32) (N : Vec Ideal S256 .f32) (y0 : Fin 8) (y1 : Fin 128) (h : Fin 256) :
    k0_pay2 (F := Ideal) T N (ix3 y0 y1 h) = angle (T (ix2 y0 y1)) N h := by
  unfold k0_pay2
  simp only [mulf_apply, bcast_tile, cast_tile_unit, bcast_lane, cast_vec_units, broadcast_apply]
  rfl

/-- A sine, cosine or hyperbolic tangent of a vector, at an index, is that function of the element. -/
theorem sin_at {s : Shape} {φ : FTy} (x : FVec Ideal s φ) (i : s.Idx) : sin x i = Ideal.sin (x i) := rfl
theorem cos_at {s : Shape} {φ : FTy} (x : FVec Ideal s φ) (i : s.Idx) : cos x i = Ideal.cos (x i) := rfl
theorem tanh_at {s : Shape} {φ : FTy} (x : FVec Ideal s φ) (i : s.Idx) : tanh x i = Ideal.tanh (x i) := rfl

/-- The sines as matrix rows: row of position (y0, y1), column `h`. -/
theorem pay_sin (T : Vec Ideal S8x128 .f32) (N : Vec Ideal S256 .f32) (y0 : Fin 8) (y1 : Fin 128) (h : Fin 256) :
    k0_pay3 (F := Ideal) T N (ix2 (tileRow y0 y1) h) = Ideal.sin (angle (T (ix2 y0 y1)) N h) := by
  unfold k0_pay3
  simp only [truncf_apply, cast_rows, sin_at, pay_angle]

/-- The cosines as matrix rows. -/
theorem pay_cos (T : Vec Ideal S8x128 .f32) (N : Vec Ideal S256 .f32) (y0 : Fin 8) (y1 : Fin 128) (h : Fin 256) :
    k0_pay4 (F := Ideal) T N (ix2 (tileRow y0 y1) h) = Ideal.cos (angle (T (ix2 y0 y1)) N h) := by
  unfold k0_pay4
  simp only [truncf_apply, cast_rows, cos_at, pay_angle]

/-- The shift: sines against `V` plus cosines against `W`. -/
theorem pay_shift (T : Vec Ideal S8x128 .f32) (N : Vec Ideal S256 .f32) (V W : Vec Ideal S256x256 .f32)
    (y0 : Fin 8) (y1 : Fin 128) (e : Fin 256) :
    k0_pay5 (F := Ideal) T N V W (ix2 (tileRow y0 y1) e) = mix (T (ix2 y0 y1)) N V W e := by
  unfold k0_pay5
  simp only [addf_apply, prod_apply, truncf_apply, pay_sin, pay_cos]
  rfl

/-- The projected signal times its scale `tanh (sines against A plus cosines against B)`. -/
theorem pay_scaled (T X : Vec Ideal S8x128 .f32) (N : Vec Ideal S256 .f32) (A B : Vec Ideal S256x256 .f32) (LPW : Vec Ideal S256 .f32)
    (y0 : Fin 8) (y1 : Fin 128) (e : Fin 256) :
    k0_pay6 (F := Ideal) T X N A B LPW (ix2 (tileRow y0 y1) e)
      = X (ix2 y0 y1) * LPW (ix1 e) * Ideal.tanh (mix (T (ix2 y0 y1)) N A B e) := by
  unfold k0_pay6
  simp only [mulf_apply, addf_apply, tanh_at, cast_rows, bcast_tile, cast_tile_unit, bcast_lane, cast_vec_units, prod_apply,
    truncf_apply, pay_sin, pay_cos]
  rfl

/-- THE STORED VALUE at position (y0, y1) and output `f`: that position's row, the projection matrix read transposed. -/
theorem pay_row (T X : Vec Ideal S8x128 .f32) (N LPW : Vec Ideal S256 .f32) (A B W V P : Vec Ideal S256x256 .f32)
    (y0 : Fin 8) (y1 : Fin 128) (f : Fin 256) :
    k0_pay1 (F := Ideal) (k0_pay5 T N V W) (k0_pay6 T X N A B LPW) P (ix3 y0 y1 f)
      = row (T (ix2 y0 y1)) (X (ix2 y0 y1)) N LPW A B W V (fun i => P (ix2 (i 1) (i 0))) f := by
  unfold k0_pay1
  simp only [cast_tile, prod_apply, truncf_apply, addf_apply, shapeCast_self, pay_shift, pay_scaled]
  rfl

end Cert.Film

end
-- ==== Proof.FilmArray.lean ====
/-
  From tiles to the whole array.

  The grid has 4 · 32 points; point (i, j) is handed tile (i, j) of `x` and of `t` (8 rows of positions by 128
  columns), the seven weight arrays whole, and writes tile (i, j) of the result, all 256 outputs of each of its
  positions. Position (y0, y1) of tile (i, j) is position (8 i + y0, 128 j + y1) of the grid of samples, so what
  the point writes is the specification's row of exactly that position: the tile of `result`. The 128 tiles are
  disjoint and fill [32, 4096, 256] (position (r, s) lies in tile (r / 8, s / 128)), so after the run the array
  holds `result` everywhere.

  The projection matrix the region finds is the transpose of `lp2`, written by the one host operation before the
  region; the kernel reads it at (feature, output), which is `lp2` at (output, feature).
-/
import proofs.«161239_j79319456022770_1_alg».proof.Proof.Gen.KernelIdeal.Value
import proofs.«161239_j79319456022770_1_alg».proof.Proof.FilmTile
import Idealize.ShloMosaic.Lib.ValueLayout

set_option maxRecDepth 16384

noncomputable section

open scoped BigOperators

namespace Cert.Film

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays as the region finds them, by their literal types -/

abbrev arrX (c : Dev nD) : Vec Ideal S32x4096 .f32 := V m c main_arg0
abbrev arrT (c : Dev nD) : Vec Ideal S32x4096 .f32 := V m c main_arg1
abbrev arrA (c : Dev nD) : Vec Ideal S256x256 .f32 := V m c main_arg3
abbrev arrB (c : Dev nD) : Vec Ideal S256x256 .f32 := V m c main_arg4
abbrev arrW (c : Dev nD) : Vec Ideal S256x256 .f32 := V m c main_arg5
abbrev arrV (c : Dev nD) : Vec Ideal S256x256 .f32 := V m c main_arg6
abbrev arrL (c : Dev nD) : Vec Ideal S256 .f32 := V m c main_arg7
/-- The transposed projection matrix, as the host operation before the region left it. -/
abbrev arrP (c : Dev nD) : Vec Ideal S256x256 .f32 := V m c main_v0
abbrev arrN (c : Dev nD) : Vec Ideal S256 .f32 := V m c main_arg9

/-- The result in terms of the arrays the region finds: the projection read transposed. -/
def found (c : Dev nD) : S32x4096x256.Idx → EReal :=
  result (arrX m c) (arrT m c) (arrA m c) (arrB m c) (arrW m c) (arrV m c) (arrL m c) (fun i => arrP m c (ix2 (i 1) (i 0))) (arrN m c)

/-! ## The index maps, decided over the grid -/

/-- The tiles of `x` and `t` move with the result's tile; the weight arrays are handed whole at every point; the result's
    tile index has no offset along the outputs and stays inside 4 by 32. -/
theorem idx_facts : ∀ t : Fin cfg0.N,
    win0_0.index t (0 : Fin 2) = win0_9.index t (0 : Fin 3) ∧ win0_0.index t (1 : Fin 2) = win0_9.index t (1 : Fin 3)
    ∧ win0_1.index t (0 : Fin 2) = win0_9.index t (0 : Fin 3) ∧ win0_1.index t (1 : Fin 2) = win0_9.index t (1 : Fin 3)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (2 : Fin 3) = 0 ∧ win0_9.index t (0 : Fin 3) ≤ 3 ∧ win0_9.index t (1 : Fin 3) ≤ 31 :=
  (by decide +kernel : ∀ t : Fin grid0.N, _)

/-- Every tile of the 4 by 32 tiling is some point's. -/
theorem idx_onto : ∀ (q0 : Fin 4) (q1 : Fin 32), ∃ t : Fin cfg0.N, win0_9.index t = ![q0.val, q1.val, 0] :=
  (by decide +kernel : ∀ (q0 : Fin 4) (q1 : Fin 32), ∃ t : Fin grid0.N, win0_9.index t = ![q0.val, q1.val, 0])

/-! ## The blocks a point is handed, read off the arrays -/

/-- The tile of `t` at point `t` holds, at (y0, y1), the array at the result tile's position. -/
theorem blk_t (c : Dev nD) (t : Fin cfg0.N) (y0 : Fin 8) (y1 : Fin 128) (f : Fin 256) :
    iblk m c 1 t (ix2 y0 y1) = arrT m c (ix2 ((((cfg0.win 9).blk t).view.emb (ix3 y0 y1 f)) 0) ((((cfg0.win 9).blk t).view.emb (ix3 y0 y1 f)) 1)) := by
  obtain ⟨-, -, e0, e1, -⟩ := idx_facts t
  show V m c main_arg1 (((cfg0.win 1).blk t).view.emb (ix2 y0 y1)) = V m c main_arg1 _
  refine congrArg (V m c main_arg1) (funext fun a => Fin.ext ?_)
  match a with
  | ⟨0, _⟩ => show win0_1.index t (0 : Fin 2) * 8 + 1 * y0.val = win0_9.index t (0 : Fin 3) * 8 + 1 * y0.val; omega
  | ⟨1, _⟩ => show win0_1.index t (1 : Fin 2) * 128 + 1 * y1.val = win0_9.index t (1 : Fin 3) * 128 + 1 * y1.val; omega

/-- The tile of `x` likewise. -/
theorem blk_x (c : Dev nD) (t : Fin cfg0.N) (y0 : Fin 8) (y1 : Fin 128) (f : Fin 256) :
    iblk m c 0 t (ix2 y0 y1) = arrX m c (ix2 ((((cfg0.win 9).blk t).view.emb (ix3 y0 y1 f)) 0) ((((cfg0.win 9).blk t).view.emb (ix3 y0 y1 f)) 1)) := by
  obtain ⟨e0, e1, -⟩ := idx_facts t
  show V m c main_arg0 (((cfg0.win 0).blk t).view.emb (ix2 y0 y1)) = V m c main_arg0 _
  refine congrArg (V m c main_arg0) (funext fun a => Fin.ext ?_)
  match a with
  | ⟨0, _⟩ => show win0_0.index t (0 : Fin 2) * 8 + 1 * y0.val = win0_9.index t (0 : Fin 3) * 8 + 1 * y0.val; omega
  | ⟨1, _⟩ => show win0_0.index t (1 : Fin 2) * 128 + 1 * y1.val = win0_9.index t (1 : Fin 3) * 128 + 1 * y1.val; omega

/-- The output coordinate of the result's tile is the array's: no offset along the outputs. -/
theorem emb_out (t : Fin cfg0.N) (y0 : Fin 8) (y1 : Fin 128) (f : Fin 256) :
    (((cfg0.win 9).blk t).view.emb (ix3 y0 y1 f)) 2 = f := by
  obtain ⟨-, -, -, -, -, -, -, -, -, -, -, -, -, -, -, -, e2, -⟩ := idx_facts t
  refine Fin.ext ?_
  show win0_9.index t (2 : Fin 3) * 256 + 1 * f.val = f.val
  omega

/-- A weight matrix is handed whole. -/
theorem blk_a (c : Dev nD) (t : Fin cfg0.N) : iblk m c 2 t = arrA m c := by
  obtain ⟨-, -, -, -, e0, e1, -⟩ := idx_facts t
  funext y
  show V m c main_arg3 (((cfg0.win 2).blk t).view.emb y) = V m c main_arg3 y
  refine congrArg (V m c main_arg3) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega
theorem blk_b (c : Dev nD) (t : Fin cfg0.N) : iblk m c 3 t = arrB m c := by
  obtain ⟨-, -, -, -, -, -, e0, e1, -⟩ := idx_facts t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem blk_w (c : Dev nD) (t : Fin cfg0.N) : iblk m c 4 t = arrW m c := by
  obtain ⟨-, -, -, -, -, -, -, -, e0, e1, -⟩ := idx_facts t
  funext y
  show V m c main_arg5 (((cfg0.win 4).blk t).view.emb y) = V m c main_arg5 y
  refine congrArg (V m c main_arg5) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem blk_v (c : Dev nD) (t : Fin cfg0.N) : iblk m c 5 t = arrV m c := by
  obtain ⟨-, -, -, -, -, -, -, -, -, -, e0, e1, -⟩ := idx_facts t
  funext y
  show V m c main_arg6 (((cfg0.win 5).blk t).view.emb y) = V m c main_arg6 y
  refine congrArg (V m c main_arg6) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega
theorem blk_p (c : Dev nD) (t : Fin cfg0.N) : iblk m c 7 t = arrP m c := by
  obtain ⟨-, -, -, -, -, -, -, -, -, -, -, -, -, e0, e1, -⟩ := idx_facts t
  funext y
  show V m c main_v0 (((cfg0.win 7).blk t).view.emb y) = V m c main_v0 y
  refine congrArg (V m c main_v0) (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega
/-- A weight vector is handed whole. -/
theorem blk_l (c : Dev nD) (t : Fin cfg0.N) : iblk m c 6 t = arrL m c := by
  obtain ⟨-, -, -, -, -, -, -, -, -, -, -, -, e0, -⟩ := idx_facts t
  funext y
  show V m c main_arg7 (((cfg0.win 6).blk t).view.emb y) = V m c main_arg7 y
  refine congrArg (V m c main_arg7) (funext fun a => Fin.ext ?_)
  match a with
  | ⟨0, _⟩ => show win0_6.index t (0 : Fin 1) * 256 + 1 * (y 0).val = (y 0).val; omega
theorem blk_n (c : Dev nD) (t : Fin cfg0.N) : iblk m c 8 t = arrN m c := by
  obtain ⟨-, -, -, -, -, -, -, -, -, -, -, -, -, -, -, e0, -⟩ := idx_facts t
  funext y
  show V m c main_arg9 (((cfg0.win 8).blk t).view.emb y) = V m c main_arg9 y
  refine congrArg (V m c main_arg9) (funext fun a => Fin.ext ?_)
  match a with
  | ⟨0, _⟩ => show win0_8.index t (0 : Fin 1) * 256 + 1 * (y 0).val = (y 0).val; omega

/-! ## What a point writes back is its tile of the result -/

theorem flushed_eq (c : Dev nD) (t : Fin cfg0.N) :
    (dats m 0 c).flushed 9 t = ((cfg0.win 9).blk t).view.read (Elt Ideal) (found m c) := by
  rw [flushed9]
  unfold out0_9
  rw [View.canon_unit_zero hz3]
  simp only [View.ld_unit_zero (S := S8x128) hz2, View.ld_unit_zero (S := S256) hz1, View.ld_unit_zero (S := S256x256) hz2]
  refine funext fun (j : S8x128x256.Idx) => ?_
  obtain ⟨y0, y1, f, rfl⟩ : ∃ (y0 : Fin 8) (y1 : Fin 128) (f : Fin 256), j = ix3 y0 y1 f := ⟨j 0, j 1, j 2, eq_ix3 j⟩
  show k0_pay1 (F := Ideal) (k0_pay5 (iblk m c 1 t) (iblk m c 8 t) (iblk m c 5 t) (iblk m c 4 t))
      (k0_pay6 (iblk m c 1 t) (iblk m c 0 t) (iblk m c 8 t) (iblk m c 2 t) (iblk m c 3 t) (iblk m c 6 t)) (iblk m c 7 t) (ix3 y0 y1 f)
    = found m c (((cfg0.win 9).blk t).view.emb (ix3 y0 y1 f))
  refine (pay_row (iblk m c 1 t) (iblk m c 0 t) (iblk m c 8 t) (iblk m c 6 t) (iblk m c 2 t) (iblk m c 3 t) (iblk m c 4 t) (iblk m c 5 t)
    (iblk m c 7 t) y0 y1 f).trans ?_
  rw [blk_t m c t y0 y1 f, blk_x m c t y0 y1 f, blk_n m c t, blk_l m c t, blk_a m c t, blk_b m c t, blk_w m c t, blk_v m c t, blk_p m c t]
  show _ = row _ _ (arrN m c) (arrL m c) (arrA m c) (arrB m c) (arrW m c) (arrV m c) (fun i => arrP m c (ix2 (i 1) (i 0)))
    ((((cfg0.win 9).blk t).view.emb (ix3 y0 y1 f)) 2)
  rw [emb_out t y0 y1 f]

/-! ## The tiles fill the array -/

/-- An index of the result is in point `t`'s tile iff each coordinate is in the tile's range on its axis. -/
theorem mem_blk (t : Fin cfg0.N) (i : S32x4096x256.Idx) :
    i ∈ ((cfg0.win 9).blk t).view.set ↔ ∀ a : Fin 3, win0_9.index t a * S8x128x256.size a ≤ (i a).val ∧ (i a).val < win0_9.index t a * S8x128x256.size a + S8x128x256.size a := by
  show i ∈ ((View.whole main_v1).slice (win0_9.rect t)).set ↔ _
  rw [View.set_slice_whole, Rect.mem_set_unit]
  exact Iff.rfl

/-- Position (r, s) lies in tile (r / 8, s / 128). -/
theorem cover (i : S32x4096x256.Idx) : ∃ t : Fin cfg0.N, (cfg0.win 9).flush t = true ∧ i ∈ ((cfg0.win 9).blk t).view.set := by
  have hi0 : (i 0).val < 32 := (i 0).isLt
  have hi1 : (i 1).val < 4096 := (i 1).isLt
  have hi2 : (i 2).val < 256 := (i 2).isLt
  obtain ⟨t, ht⟩ := idx_onto ⟨(i 0).val / 8, by omega⟩ ⟨(i 1).val / 128, by omega⟩
  have q0 : win0_9.index t (0 : Fin 3) = (i 0).val / 8 := congrFun ht 0
  have q1 : win0_9.index t (1 : Fin 3) = (i 1).val / 128 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 8 ≤ (i 0).val ∧ (i 0).val < win0_9.index t (0 : Fin 3) * 8 + 8; omega
  | ⟨1, _⟩ => show win0_9.index t (1 : Fin 3) * 128 ≤ (i 1).val ∧ (i 1).val < win0_9.index t (1 : Fin 3) * 128 + 128; omega
  | ⟨2, _⟩ => show win0_9.index t (2 : Fin 3) * 256 ≤ (i 2).val ∧ (i 2).val < win0_9.index t (2 : Fin 3) * 256 + 256; omega

/-- THE ARRAY after the run. -/
theorem final (c : Dev nD) : (dats m 0 c).arrAt 9 cfg0.N = found m c :=
  (dats m 0 c).arrAt_eq_of_cover 9 (found m c) (fun t _ => flushed_eq m c t) (cover)

end Cert.Film

end
-- ==== Proof.FilmRun.lean ====
/-
  The kernel's run, with its result named.

  Before the region the program transposes `lp2`; every other array the region finds is as launched. So the
  projection the kernel reads at (feature, output) is `lp2` at (output, feature), and the result array, which holds
  the specification's rows over the arrays the region finds, holds them over the launch arrays.
-/
import proofs.«161239_j79319456022770_1_alg».proof.Proof.FilmArray
import Idealize.ShloMosaic.Lib.StableHlo.Run
import Idealize.ShloMosaic.Lib.ValueLayout

noncomputable section

namespace Cert.Film

open Cert.KernelIdeal Cert.KernelIdeal.Gen Cert.KernelIdeal.Value Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The projection matrix the region finds is the transpose of `lp2` as launched. -/
theorem arrP_eq (c : Dev nD) :
    arrP m c = transpose S256x256 [1, 0] (m ((c : Thread nD τ).loc main_arg8)) transposes_S256x256_S256x256_1_0 := by
  show (V m c main_v0 : S256x256.Idx → EReal) = _
  dsimp only [V, hostOps0]
  after_results

/-- Read at (feature, output) it is `lp2` at (output, feature). -/
theorem arrP_swap (c : Dev nD) :
    (fun i : S256x256.Idx => arrP m c (ix2 (i 1) (i 0))) = m ((c : Thread nD τ).loc main_arg8) := by
  funext i
  obtain ⟨f, e, rfl⟩ : ∃ (f e : Fin 256), i = ix2 f e := ⟨i 0, i 1, eq_ix2 i⟩
  rw [arrP_eq]
  exact transpose_ix2_apply (m ((c : Thread nD τ).loc main_arg8)) transposes_S256x256_S256x256_1_0 e f

/-- The result over the arrays the region finds is the result over the launch arrays. -/
theorem found_eq (c : Dev nD) :
    found m c = result (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  unfold found
  rw [arrP_swap]
  show result (V m c main_arg0) (V m c main_arg1) (V m c main_arg3) (V m c main_arg4) (V m c main_arg5) (V m c main_arg6) (V m c main_arg7) _ (V m c main_arg9) = _
  rw [V_main_arg0, V_main_arg1, V_main_arg3, V_main_arg4, V_main_arg5, V_main_arg6, V_main_arg7, V_main_arg9]

/-- THE RUN: every weakly fair execution ends with the result array at `result` of the launch arrays, the arguments unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (found_eq m c)), (h c).2⟩) (run_blocks m ρ)

end Cert.Film

end
-- ==== Proof.FilmRef.lean ====
/-
  The reference computes the same row at every position.

  The reference spreads `t` and `x` along a new last axis, forms the angles as `(t · 2π) · n[h]`, takes sines and
  cosines, and contracts them against the weight matrices over the harmonic; the last contraction is over the
  feature, against `lp2` read at (output, feature). Read at (b, s, f) this is `row` of position (b, s) at output
  `f`. The one algebraic step is regrouping the angle: `(t · 2π) · n = t · (2π · n)`, associativity of the
  product on the extended reals.
-/
import proofs.«161239_j79319456022770_1_alg».proof.Proof.Gen.ReferenceIdeal.Read
import proofs.«161239_j79319456022770_1_alg».proof.Proof.FilmSpec
import Idealize.ShloMosaic.Lib.ValueIdx

noncomputable section

open scoped BigOperators

namespace Cert.Film

open Cert.ReferenceIdeal Cert.ReferenceIdeal.Read Idealize.ShloMosaic Idealize.ShloMosaic.ValueIdx

/-! ## Where each spread-out operand is read -/

theorem ref_pos_t (b : Fin 32) (s : Fin 4096) (h : Fin 256) : idx_main_v0 (idx_main_v4 (ix3 b s h)) = ix2 b s :=
  funext fun a => Fin.ext (by match a with | ⟨0, _⟩ => rfl | ⟨1, _⟩ => rfl)
theorem ref_lane_n (b : Fin 32) (s : Fin 4096) (h : Fin 256) : idx_main_v3 (idx_main_v5 (ix3 b s h)) = ix1 h :=
  funext fun a => Fin.ext (by match a with | ⟨0, _⟩ => rfl)
theorem ref_pos_x (b : Fin 32) (s : Fin 4096) (e : Fin 256) : idx_main_v16 (idx_main_v18 (ix3 b s e)) = ix2 b s :=
  funext fun a => Fin.ext (by match a with | ⟨0, _⟩ => rfl | ⟨1, _⟩ => rfl)
theorem ref_lane_w (b : Fin 32) (s : Fin 4096) (e : Fin 256) : idx_main_v17 (idx_main_v19 (ix3 b s e)) = ix1 e :=
  funext fun a => Fin.ext (by match a with | ⟨0, _⟩ => rfl)

/-- A contraction over the last axis reads the left operand at the same position, harmonic `k` … -/
theorem ref_lidx9 (b : Fin 32) (s : Fin 4096) (e k : Fin 256) : lidx_main_v9 (ix3 b s e) k = ix3 b s k :=
  funext fun a => Fin.ext (by match a with | ⟨0, _⟩ => rfl | ⟨1, _⟩ => rfl | ⟨2, _⟩ => rfl)
theorem ref_lidx10 (b : Fin 32) (s : Fin 4096) (e k : Fin 256) : lidx_main_v10 (ix3 b s e) k = ix3 b s k :=
  funext fun a => Fin.ext (by match a with | ⟨0, _⟩ => rfl | ⟨1, _⟩ => rfl | ⟨2, _⟩ => rfl)
theorem ref_lidx13 (b : Fin 32) (s : Fin 4096) (e k : Fin 256) : lidx_main_v13 (ix3 b s e) k = ix3 b s k :=
  funext fun a => Fin.ext (by match a with | ⟨0, _⟩ => rfl | ⟨1, _⟩ => rfl | ⟨2, _⟩ => rfl)
theorem ref_lidx14 (b : Fin 32) (s : Fin 4096) (e k : Fin 256) : lidx_main_v14 (ix3 b s e) k = ix3 b s k :=
  funext fun a => Fin.ext (by match a with | ⟨0, _⟩ => rfl | ⟨1, _⟩ => rfl | ⟨2, _⟩ => rfl)
theorem ref_lidx23 (b : Fin 32) (s : Fin 4096) (f k : Fin 256) : lidx_main_v23 (ix3 b s f) k = ix3 b s k :=
  funext fun a => Fin.ext (by match a with | ⟨0, _⟩ => rfl | ⟨1, _⟩ => rfl | ⟨2, _⟩ => rfl)
/-- … and the weight matrix at (harmonic, feature); the last one reads `lp2` at (output, feature). -/
theorem ref_ridx9 (b : Fin 32) (s : Fin 4096) (e k : Fin 256) : ridx_main_v9 (ix3 b s e) k = ix2 k e :=
  funext fun a => Fin.ext (by match a with | ⟨0, _⟩ => rfl | ⟨1, _⟩ => rfl)
theorem ref_ridx10 (b : Fin 32) (s : Fin 4096) (e k : Fin 256) : ridx_main_v10 (ix3 b s e) k = ix2 k e :=
  funext fun a => Fin.ext (by match a with | ⟨0, _⟩ => rfl | ⟨1, _⟩ => rfl)
theorem ref_ridx13 (b : Fin 32) (s : Fin 4096) (e k : Fin 256) : ridx_main_v13 (ix3 b s e) k = ix2 k e :=
  funext fun a => Fin.ext (by match a with | ⟨0, _⟩ => rfl | ⟨1, _⟩ => rfl)
theorem ref_ridx14 (b : Fin 32) (s : Fin 4096) (e k : Fin 256) : ridx_main_v14 (ix3 b s e) k = ix2 k e :=
  funext fun a => Fin.ext (by match a with | ⟨0, _⟩ => rfl | ⟨1, _⟩ => rfl)
theorem ref_ridx23 (b : Fin 32) (s : Fin 4096) (f k : Fin 256) : ridx_main_v23 (ix3 b s f) k = ix2 f k :=
  funext fun a => Fin.ext (by match a with | ⟨0, _⟩ => rfl | ⟨1, _⟩ => rfl)

/-! ## The stages, read at a position -/

variable (x0 x1 : (⟨S32x4096, .f32⟩ : BufTy).Contents (Elt Ideal)) (x3 x4 x5 x6 x8 : (⟨S256x256, .f32⟩ : BufTy).Contents (Elt Ideal))
  (x7 x9 : (⟨S256, .f32⟩ : BufTy).Contents (Elt Ideal))

/-- The reference's angle, regrouped: `(t · 2π) · n[h] = t · (2π · n[h])`. -/
theorem ref_angle (b : Fin 32) (s : Fin 4096) (h : Fin 256) :
    val_main_v6 (F := Ideal) x1 x9 (ix3 b s h) = angle (x1 (ix2 b s)) x9 h := by
  rw [val_main_v6_apply, val_main_v4_apply, val_main_v2_apply, val_main_v0_apply, val_main_v1_apply, val_main_cst_apply,
    val_main_v5_apply, val_main_v3_apply, ref_pos_t, ref_lane_n]
  exact mul_assoc (x1 (ix2 b s)) (Ideal.ofBits .f32 0x40C90FDB#32) (x9 (ix1 h))

theorem ref_sin (b : Fin 32) (s : Fin 4096) (h : Fin 256) :
    val_main_v7 (F := Ideal) x1 x9 (ix3 b s h) = Ideal.sin (angle (x1 (ix2 b s)) x9 h) := by
  rw [val_main_v7_apply, ref_angle]; rfl

theorem ref_cos (b : Fin 32) (s : Fin 4096) (h : Fin 256) :
    val_main_v8 (F := Ideal) x1 x9 (ix3 b s h) = Ideal.cos (angle (x1 (ix2 b s)) x9 h) := by
  rw [val_main_v8_apply, ref_angle]; rfl

/-- The scale's argument: sines against `a` plus cosines against `b`. -/
theorem ref_mix_ab (b : Fin 32) (s : Fin 4096) (e : Fin 256) :
    val_main_v11 (F := Ideal) x1 x3 x4 x9 (ix3 b s e) = mix (x1 (ix2 b s)) x9 x3 x4 e := by
  rw [val_main_v11_apply, val_main_v9_apply, val_main_v10_apply]
  simp only [ref_lidx9, ref_ridx9, ref_lidx10, ref_ridx10, ref_sin, ref_cos]
  rfl

/-- The shift: sines against `v` plus cosines against `w`. -/
theorem ref_mix_vw (b : Fin 32) (s : Fin 4096) (e : Fin 256) :
    val_main_v15 (F := Ideal) x1 x5 x6 x9 (ix3 b s e) = mix (x1 (ix2 b s)) x9 x6 x5 e := by
  rw [val_main_v15_apply, val_main_v13_apply, val_main_v14_apply]
  simp only [ref_lidx13, ref_ridx13, ref_lidx14, ref_ridx14, ref_sin, ref_cos]
  rfl

/-- The modulated feature. -/
theorem ref_film (b : Fin 32) (s : Fin 4096) (e : Fin 256) :
    val_main_v22 (F := Ideal) x0 x1 x3 x4 x5 x6 x7 x9 (ix3 b s e) = film (x1 (ix2 b s)) (x0 (ix2 b s)) x9 x7 x3 x4 x5 x6 e := by
  rw [val_main_v22_apply, val_main_v21_apply, val_main_v20_apply, val_main_v18_apply, val_main_v16_apply, val_main_v19_apply,
    val_main_v17_apply, val_main_v12_apply, ref_mix_ab, ref_mix_vw, ref_pos_x, ref_lane_w]
  rfl

/-- THE REFERENCE'S RESULT is the row of every position. -/
theorem ref_result : val_main_v23 (F := Ideal) x0 x1 x3 x4 x5 x6 x7 x8 x9 = result x0 x1 x3 x4 x5 x6 x7 x8 x9 := by
  funext i
  obtain ⟨b, s, f, rfl⟩ : ∃ (b : Fin 32) (s : Fin 4096) (f : Fin 256), i = ix3 b s f := ⟨i 0, i 1, i 2, eq_ix3 i⟩
  rw [val_main_v23_apply]
  simp only [ref_lidx23, ref_ridx23, ref_film]
  rfl

end Cert.Film

end
-- ==== Proof.lean ====
/-
  The kernel and the reference compute one function.

  For each position (b, s) of a [32, 4096] grid of samples both programs form 256 angles `t[b, s] · 2π · n[h]`, take their
  sines and cosines, mix them through four [256, 256] weight matrices into a scale `tanh (sin · a + cos · b)` and a shift
  `sin · v + cos · w`, apply these to the projected signal `x[b, s] · lp_w`, and project the 256 features by the transpose
  of `lp2`. The kernel does this tile by tile (8 by 128 positions as 1024 matrix rows, in a narrower float format for the
  matrix products); the reference does it for the whole array at once. Over the extended reals a change of float format is
  the identity and a matrix product is a plain sum, so the two differ only in how the angle's product is grouped,
  `t · (2π · n)` against `(t · 2π) · n`, and in layout: the tiles fill the array, and the kernel reads a transposed copy
  of `lp2` where the reference contracts `lp2`'s second axis.

  FilmSpec states the common function; FilmTile reads the kernel's stored value at a tile position; FilmArray lays the
  tiles into the array; FilmRun names the kernel's result; FilmRef reads the reference's result. Neither side uses that
  the inputs are finite: sums and products of extended reals are commutative and associative as they stand.
-/
import proofs.«161239_j79319456022770_1_alg».proof.Defs
import proofs.«161239_j79319456022770_1_alg».proof.Proof.Gen.Kernel
import proofs.«161239_j79319456022770_1_alg».proof.Proof.Gen.Kernel.Skeleton
import proofs.«161239_j79319456022770_1_alg».proof.Proof.Gen.Kernel.Launch
import proofs.«161239_j79319456022770_1_alg».proof.Proof.Gen.Kernel.Points
import proofs.«161239_j79319456022770_1_alg».proof.Proof.Gen.Kernel.Frame
import proofs.«161239_j79319456022770_1_alg».proof.Proof.Gen.KernelIdeal
import proofs.«161239_j79319456022770_1_alg».proof.Proof.Gen.KernelIdeal.Skeleton
import proofs.«161239_j79319456022770_1_alg».proof.Proof.Gen.KernelIdeal.Launch
import proofs.«161239_j79319456022770_1_alg».proof.Proof.Gen.KernelIdeal.Points
import proofs.«161239_j79319456022770_1_alg».proof.Proof.Gen.KernelIdeal.Frame
import proofs.«161239_j79319456022770_1_alg».proof.Proof.Gen.ReferenceIdeal
import proofs.«161239_j79319456022770_1_alg».proof.Proof.Gen.Pre_finite_inputs
import proofs.«161239_j79319456022770_1_alg».proof.Proof.Gen.KernelIdeal.Value
import proofs.«161239_j79319456022770_1_alg».proof.Proof.Gen.ReferenceIdeal.Run
import proofs.«161239_j79319456022770_1_alg».proof.Proof.Gen.ReferenceIdeal.Read
import proofs.«161239_j79319456022770_1_alg».proof.Proof.FilmRun
import proofs.«161239_j79319456022770_1_alg».proof.Proof.FilmRef
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's result both end at
    `result` of those arguments: the kernel's by its tiles (FilmRun), the reference's stage by stage (FilmRef). -/
theorem algebraic : Cert.algebraic_KernelIdeal_ReferenceIdeal := by
  intro m ρ m' ρ' _ hagree
  refine ⟨_, Cert.Film.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9⟩ := hagree c
  rw [Cert.ReferenceIdeal.Read.val_main_v23_eq, Cert.Film.ref_result, h0, h1, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
